-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S65536x2048 : Shape := ⟨2, ![65536, 2048]⟩
abbrev S65536 : Shape := ⟨1, ![65536]⟩
abbrev S2048x65536 : Shape := ⟨2, ![2048, 65536]⟩
abbrev S2048 : Shape := ⟨1, ![2048]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S65536x2048 : S_.BroadcastsInDim S65536x2048 (![] : Fin 0 → Fin S65536x2048.rank)
  reducesTo_S65536x2048_S_d0_1 : S65536x2048.ReducesTo [0, 1] S_
  bcast_S_S65536 : S_.BroadcastsInDim S65536 (![] : Fin 0 → Fin S65536.rank)
  reducesTo_S65536_S_d0 : S65536.ReducesTo [0] S_
  bcast_S_S2048x65536 : S_.BroadcastsInDim S2048x65536 (![] : Fin 0 → Fin S2048x65536.rank)
  reducesTo_S2048x65536_S_d0_1 : S2048x65536.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S65536 .f32) (main_v13 : IVec S_ 1) (main_v16 : IVec S2048x65536 1) : IVec S_ 1 :=
  let main_c_5 : IVec S_ 1 := constantI S_ 1 1#1
  let main_v17 : IVec S_ 1 := (fun x v => Host.reduce IntOp.andi x v reducesTo_S2048x65536_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S65536 .f32 := Host.absf main_arg5
  let main_cst_8 : FVec F S_ .f32 := constant S_ .f32 0x7F800000#32
  let main_v25 : FVec F S65536 .f32 := broadcastInDim S65536 ![] bcast_S_S65536 main_cst_8
  let main_v26 : IVec S65536 1 := cmpf .olt main_v24 main_v25
  let main_c_9 : IVec S_ 1 := constantI S_ 1 1#1
  let main_v27 : IVec S_ 1 := (fun x v => Host.reduce IntOp.andi x v reducesTo_S65536_S_d0 h_S_) main_v26 main_c_9
  let main_v28 : IVec S_ 1 := andi main_v23 main_v27
  main_v28

def fn {F : FTy → Type} [FloatOps F] (main_arg0 : FVec F S512x2048 .f32) (main_arg1 : FVec F S65536x2048 .f32) (main_arg2 : FVec F S65536 .f32) (main_arg3 : FVec F S2048x65536 .f32) (main_arg4 : FVec F S2048 .f32) (main_arg5 : FVec F S65536 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S65536x2048 .f32 := Host.absf main_arg1
  let main_cst_0 : FVec F S_ .f32 := constant S_ .f32 0x7F800000#32
  let main_v5 : FVec F S65536x2048 .f32 := broadcastInDim S65536x2048 ![] bcast_S_S65536x2048 main_cst_0
  let main_v6 : IVec S65536x2048 1 := cmpf .olt main_v4 main_v5
  let main_c_1 : IVec S_ 1 := constantI S_ 1 1#1
  let main_v7 : IVec S_ 1 := (fun x v => Host.reduce IntOp.andi x v reducesTo_S65536x2048_S_d0_1 h_S_) main_v6 main_c_1
  let main_v8 : IVec S_ 1 := andi main_v3 main_v7
  let main_v9 : FVec F S65536 .f32 := Host.absf main_arg2
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  let main_v14 : FVec F S2048x65536 .f32 := Host.absf main_arg3
  let main_cst_4 : FVec F S_ .f32 := constant S_ .f32 0x7F800000#32
  let main_v15 : FVec F S2048x65536 .f32 := broadcastInDim S2048x65536 ![] bcast_S_S2048x65536 main_cst_4
  let main_v16 : IVec S2048x65536 1 := cmpf .olt main_v14 main_v15
  fn_part1 (F := F) main_arg4 main_arg5 main_v13 main_v16
-- ==== Kernel.lean ====
abbrev S512x2048 : Shape := ⟨2, ![512, 2048]⟩
abbrev S65536x2048 : Shape := ⟨2, ![65536, 2048]⟩
abbrev S65536 : Shape := ⟨1, ![65536]⟩
abbrev S2048x65536 : Shape := ⟨2, ![2048, 65536]⟩
abbrev S2048 : Shape := ⟨1, ![2048]⟩
abbrev S1x2048 : Shape := ⟨2, ![1, 2048]⟩
abbrev S1x65536 : Shape := ⟨2, ![1, 65536]⟩
abbrev S512x65536 : Shape := ⟨2, ![512, 65536]⟩
abbrev S1x512 : Shape := ⟨2, ![1, 512]⟩
abbrev S2048x512 : Shape := ⟨2, ![2048, 512]⟩
abbrev S512x512 : Shape := ⟨2, ![512, 512]⟩
abbrev S_ : Shape := ⟨0, ![]⟩

abbrev nBuf : Space → Nat
  | .hbm => 25
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S65536x2048, .f32⟩
  | .hbm, ⟨2, _⟩ => ⟨S65536, .f32⟩
  | .hbm, ⟨3, _⟩ => ⟨S2048x65536, .f32⟩
  | .hbm, ⟨4, _⟩ => ⟨S2048, .f32⟩
  | .hbm, ⟨5, _⟩ => ⟨S65536, .f32⟩
  | .hbm, ⟨6, _⟩ => ⟨S1x2048, .f32⟩
  | .hbm, ⟨7, _⟩ => ⟨S512x2048, .f32⟩
  | .hbm, ⟨8, _⟩ => ⟨S512x2048, .f32⟩
  | .hbm, ⟨9, _⟩ => ⟨S1x65536, .f32⟩
  | .hbm, ⟨10, _⟩ => ⟨S1x65536, .f32⟩
  | .hbm, ⟨11, _⟩ => ⟨S1x2048, .f32⟩
  | .hbm, ⟨12, _⟩ => ⟨S512x65536, .f32⟩
  | .hbm, ⟨13, _⟩ => ⟨S512x2048, .f32⟩
  | .hbm, ⟨14, _⟩ => ⟨S512x2048, .f32⟩
  | .hbm, ⟨15, _⟩ => ⟨S512x2048, .f32⟩
  | .hbm, ⟨16, _⟩ => ⟨S_, .f32⟩
  | .hbm, ⟨17, _⟩ => ⟨S2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S1x512, .f32⟩
  | .local _ .vmem, ⟨4, _⟩ => ⟨S1x512, .f32⟩
  | .local _ .vmem, ⟨5, _⟩ => ⟨S2048x512, .f32⟩
  | .local _ .vmem, ⟨6, _⟩ => ⟨S2048x512, .f32⟩
  | .local _ .vmem, ⟨7, _⟩ => ⟨S1x2048, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x2048, .f32⟩
  | .local _ .vmem, ⟨13, _⟩ => ⟨S512x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v31 : BitVec 1 := Scalar.cmpi .eq arg0 c127_i32
  let v32 : BitVec 32 := Scalar.extui v31
  let c0_i32_17 : BitVec 32 := 0#32
  let v33 : BitVec 1 := Scalar.cmpi .ne v32 c0_i32_17
  v33

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  bcast_S2048_S1x2048_1 : S2048.BroadcastsInDim S1x2048 (![1] : Fin 1 → Fin S1x2048.rank)
  bcast_S1x2048_S512x2048_0_1 : S1x2048.BroadcastsInDim S512x2048 (![0, 1] : Fin 2 → Fin S512x2048.rank)
  shapeCasts_S65536_S1x65536 : S65536.ShapeCasts S1x65536
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  natLt_1_32 : 1 < 32
  inb_S512x512_S512x512_0_0 : ∀ a, (![0, 0] : Fin 2 → Nat) a + S512x512.size a ≤ S512x512.size a
  h_S512x512 : 0 < S512x512.numel
  inb_S2048x512_S2048x512_0_0 : ∀ a, (![0, 0] : Fin 2 → Nat) a + S2048x512.size a ≤ S2048x512.size a
  h_S2048x512 : 0 < S2048x512.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reducesTo_S512x2048_S2048_d0 : S512x2048.ReducesTo [0] S2048
  h_S_ : 0 < S_.numel
  bcast_S_S2048 : S_.BroadcastsInDim S2048 (![] : Fin 0 → Fin S2048.rank)
  reducesTo_S2048_S_d0 : S2048.ReducesTo [0] S_
  dot_S512x2048_S512x2048_S512x512_1_1_0_0_n_n_wf : DotDims.WF S512x2048 S512x2048 S512x512 [1] [1] [0] [0] [] []
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x2048.size a
  hwx0_0 : ∀ i : grid0.Coords, EltTy.bits .f32 = 32 ∨ (Rect.block (s := S512x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S65536x2048.size a
  hwx0_1 : ∀ i : grid0.Coords, EltTy.bits .f32 = 32 ∨ (Rect.block (s := S65536x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x65536.size a
  hwx0_2 : ∀ i : grid0.Coords, EltTy.bits .f32 = 32 ∨ (Rect.block (s := S1x65536) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x65536.size a
  hwx0_3 : ∀ i : grid0.Coords, EltTy.bits .f32 = 32 ∨ (Rect.block (s := S2048x65536) S2048x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x65536.size a
  hwx0_5 : ∀ i : grid0.Coords, EltTy.bits .f32 = 32 ∨ (Rect.block (s := S1x65536) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x65536.size a
  hwx0_6 : ∀ i : grid0.Coords, EltTy.bits .f32 = 32 ∨ (Rect.block (s := S512x65536) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S512x2048.size a
  hwx0_7 : ∀ i : grid0.Coords, EltTy.bits .f32 = 32 ∨ (Rect.block (s := S512x2048) S512x2048.size (cc0_transform_7 i) (hinb0_7 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v2) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S512x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S512x2048.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S512x2048 : Shape := ⟨2, ![512, 2048]⟩
abbrev S65536x2048 : Shape := ⟨2, ![65536, 2048]⟩
abbrev S65536 : Shape := ⟨1, ![65536]⟩
abbrev S2048x65536 : Shape := ⟨2, ![2048, 65536]⟩
abbrev S2048 : Shape := ⟨1, ![2048]⟩
abbrev S1x2048 : Shape := ⟨2, ![1, 2048]⟩
abbrev S512x65536 : Shape := ⟨2, ![512, 65536]⟩
abbrev S1x65536 : Shape := ⟨2, ![1, 65536]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S65536x2048, .f32⟩
  | .hbm, ⟨2, _⟩ => ⟨S65536, .f32⟩
  | .hbm, ⟨3, _⟩ => ⟨S2048x65536, .f32⟩
  | .hbm, ⟨4, _⟩ => ⟨S2048, .f32⟩
  | .hbm, ⟨5, _⟩ => ⟨S65536, .f32⟩
  | .hbm, ⟨6, _⟩ => ⟨S1x2048, .f32⟩
  | .hbm, ⟨7, _⟩ => ⟨S512x2048, .f32⟩
  | .hbm, ⟨8, _⟩ => ⟨S512x2048, .f32⟩
  | .hbm, ⟨9, _⟩ => ⟨S2048x65536, .f32⟩
  | .hbm, ⟨10, _⟩ => ⟨S512x65536, .f32⟩
  | .hbm, ⟨11, _⟩ => ⟨S1x65536, .f32⟩
  | .hbm, ⟨12, _⟩ => ⟨S512x65536, .f32⟩
  | .hbm, ⟨13, _⟩ => ⟨S512x65536, .f32⟩
  | .hbm, ⟨14, _⟩ => ⟨S65536, .f32⟩
  | .hbm, ⟨15, _⟩ => ⟨S1x65536, .f32⟩
  | .hbm, ⟨16, _⟩ => ⟨S512x65536, .f32⟩
  | .hbm, ⟨17, _⟩ => ⟨S512x65536, .i1⟩
  | .hbm, ⟨18, _⟩ => ⟨S512x65536, .f32⟩
  | .hbm, ⟨19, _⟩ => ⟨S512x65536, .f32⟩
  | .hbm, ⟨20, _⟩ => ⟨S65536x2048, .f32⟩
  | .hbm, ⟨21, _⟩ => ⟨S512x2048, .f32⟩
  | .hbm, ⟨22, _⟩ => ⟨S1x2048, .f32⟩
  | .hbm, ⟨23, _⟩ => ⟨S512x2048, .f32⟩
  | .hbm, ⟨24, _⟩ => ⟨S512x2048, .f32⟩
  | .hbm, ⟨25, _⟩ => ⟨S_, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S512x2048_0_1 : S1x2048.BroadcastsInDim S512x2048 (![0, 1] : Fin 2 → Fin S512x2048.rank)
  transposes_S65536x2048_S2048x65536_1_0 : S65536x2048.Transposes [1, 0] S2048x65536
  bcast_S65536_S1x65536_1 : S65536.BroadcastsInDim S1x65536 (![1] : Fin 1 → Fin S1x65536.rank)
  bcast_S1x65536_S512x65536_0_1 : S1x65536.BroadcastsInDim S512x65536 (![0, 1] : Fin 2 → Fin S512x65536.rank)
  transposes_S2048x65536_S65536x2048_1_0 : S2048x65536.Transposes [1, 0] S65536x2048
  bcast_S_S512x2048 : S_.BroadcastsInDim S512x2048 (![] : Fin 0 → Fin S512x2048.rank)
  reducesTo_S512x2048_S2048_d0 : S512x2048.ReducesTo [0] S2048
  h_S_ : 0 < S_.numel
  bcast_S_S2048 : S_.BroadcastsInDim S2048 (![] : Fin 0 → Fin S2048.rank)
  reducesTo_S2048_S_d0 : S2048.ReducesTo [0] S_
  dot_S512x2048_S2048x65536_S512x65536_1_0_0_1_n_n_wf : DotDims.WF S512x2048 S2048x65536 S512x65536 [1] [0] [0] [1] [] []
  dot_S512x65536_S65536x2048_S512x2048_1_0_0_1_n_n_wf : DotDims.WF S512x65536 S65536x2048 S512x2048 [1] [0] [0] [1] [] []

variable [Facts₀]

def dot_S512x2048_S2048x65536_S512x65536_1_0_0_1_n_n : DotDims S512x2048 S2048x65536 S512x65536 where
  lhsContracting := [1]
  rhsContracting := [0]
  lhsNonContracting := [0]
  rhsNonContracting := [1]
  lhsBatch := []
  rhsBatch := []
  wf := dot_S512x2048_S2048x65536_S512x65536_1_0_0_1_n_n_wf
def dot_S512x65536_S65536x2048_S512x2048_1_0_0_1_n_n : DotDims S512x65536 S65536x2048 S512x2048 where
  lhsContracting := [1]
  rhsContracting := [0]
  lhsNonContracting := [0]
  rhsNonContracting := [1]
  lhsBatch := []
  rhsBatch := []
  wf := dot_S512x65536_S65536x2048_S512x2048_1_0_0_1_n_n_wf

class Facts : Prop extends Facts₀ where

variable [Facts]
-- ==== Proof.Sae.lean ====
/-
  The mathematics both programs compute, index by index over the extended reals, with no program in sight.

  A batch of 512 rows x (each of 2048 reals) is centred by the decoder bias, encoded against 65536 dictionary rows,
  gated by a hard step against a per-feature threshold exp(log_threshold), decoded back and rescaled:

    centred n d = x n d - dec_b d
    pre n k     = (sum over d of centred n d * enc_w k d) + enc_b k
    gate n k    = 1 if pre n k > exp (lthr k), else 0
    act n k     = pre n k * gate n k
    recon n d   = ((sum over k of act n k * dec_w d k) + dec_b d) / 64

  The first result is the gate as a 512 x 65536 array; the second is a scalar loss computed from recon by
  operations that are the same on both sides, so only recon matters here.

  The dictionary axis of 65536 features is also read as 128 consecutive tiles of 512 features (feature k = 512 j + q):
  a sum over all features is the sum over the tiles of each tile's sum (sum_tiles), and an accumulator that starts at
  0 and adds one tile's sum per step holds, after step t, the sum of tiles 0..t (running_eq_sum). Both are facts of a
  commutative monoid: nothing here needs the summands to be finite.
-/
import Idealize.ShloMosaic.PureOps.Ideal.Laws
import Idealize.ShloMosaic.Lib.ValueIdx
import Mathlib.Algebra.BigOperators.Fin

noncomputable section

open scoped BigOperators

namespace Sae

open Idealize.ShloMosaic Idealize.ShloMosaic.ValueIdx

/-- A one-bit word as the extended real 0 or 1. -/
def unit01 (b : BitVec 1) : EReal := ((b.toNat : ℝ) : EReal)

/-- Widening the bit to 32 bits and reading it as a signed integer gives the same 0 or 1. -/
theorem unit01_of_signed (b : BitVec 1) : (((b.setWidth 32).toInt : ℝ) : EReal) = unit01 b := by
  unfold unit01
  by_cases h : b = 1#1
  · subst h; simp
  · have h0 : b = 0#1 := eq_zero_of_ne_one h
    subst h0; simp

section Values

variable (x : (⟨2, ![512, 2048]⟩ : Shape).Idx → EReal) (encw : (⟨2, ![65536, 2048]⟩ : Shape).Idx → EReal)
  (encb : (⟨1, ![65536]⟩ : Shape).Idx → EReal) (decw : (⟨2, ![2048, 65536]⟩ : Shape).Idx → EReal)
  (decb : (⟨1, ![2048]⟩ : Shape).Idx → EReal) (lthr : (⟨1, ![65536]⟩ : Shape).Idx → EReal)

/-- The input row with the decoder bias taken off. -/
def centred (n : Fin 512) (d : Fin 2048) : EReal := x (ix2 n d) - decb (ix1 d)

/-- The encoder's pre-activation of feature `k` on row `n`. -/
def pre (n : Fin 512) (k : Fin 65536) : EReal :=
  (∑ d : Fin 2048, centred x decb n d * encw (ix2 k d)) + encb (ix1 k)

/-- The hard step: 1 where the pre-activation exceeds the feature's threshold, else 0. -/
def gate (n : Fin 512) (k : Fin 65536) : EReal :=
  unit01 (Ideal.cmp .ogt (pre x encw encb decb n k) (Ideal.exp (lthr (ix1 k))))

/-- The gated activation. -/
def act (n : Fin 512) (k : Fin 65536) : EReal := pre x encw encb decb n k * gate x encw encb decb lthr n k

/-- One feature's share of the decoded row entry. -/
def share (n : Fin 512) (d : Fin 2048) (k : Fin 65536) : EReal := act x encw encb decb lthr n k * decw (ix2 d k)

/-- The reconstruction: decode, add the bias back, divide by 64. -/
def recon (n : Fin 512) (d : Fin 2048) : EReal :=
  Ideal.div ((∑ k : Fin 65536, share x encw encb decw decb lthr n d k) + decb (ix1 d)) (Ideal.ofBits .f32 0x42800000#32)

/-- The gate as an array. -/
def gateArr : (⟨2, ![512, 65536]⟩ : Shape).Idx → EReal := fun i => gate x encw encb decb lthr (i 0) (i 1)

/-- The reconstruction as an array. -/
def reconArr : (⟨2, ![512, 2048]⟩ : Shape).Idx → EReal := fun i => recon x encw encb decw decb lthr (i 0) (i 1)

end Values

/-! ## The feature axis as 128 tiles of 512 -/

/-- Feature `q` of tile `j`. -/
def col (j : Fin 128) (q : Fin 512) : Fin 65536 := ⟨512 * j.val + q.val, by have := j.isLt; have := q.isLt; omega⟩

@[simp] theorem col_val (j : Fin 128) (q : Fin 512) : (col j q).val = 512 * j.val + q.val := rfl

/-- A sum over all features is the sum over the tiles of each tile's sum. -/
theorem sum_tiles (f : Fin 65536 → EReal) : ∑ k : Fin 65536, f k = ∑ j : Fin 128, ∑ q : Fin 512, f (col j q) := by
  have e := Equiv.sum_comp (finProdFinEquiv : Fin 128 × Fin 512 ≃ Fin (128 * 512)) (fun k : Fin (128 * 512) => f k)
  rw [Fintype.sum_prod_type] at e
  refine e.symm.trans ?_
  refine Finset.sum_congr rfl fun j _ => Finset.sum_congr rfl fun q _ => ?_
  congr 1
  apply Fin.ext
  show q.val + 512 * j.val = 512 * j.val + q.val
  omega

/-- Tile `j`'s sum, for a tile number given as a natural number (0 past the last tile). -/
def tileSum (f : Fin 65536 → EReal) (j : ℕ) : EReal := if h : j < 128 then ∑ q : Fin 512, f (col ⟨j, h⟩ q) else 0

theorem tileSum_of_lt (f : Fin 65536 → EReal) (j : ℕ) (h : j < 128) : tileSum f j = ∑ q : Fin 512, f (col ⟨j, h⟩ q) :=
  dif_pos h

/-- An accumulator that starts from 0 at step 0 and adds `g t` at step `t`. -/
def running (g : ℕ → EReal) : ℕ → EReal
  | 0 => 0 + g 0
  | t + 1 => running g t + g (t + 1)

theorem running_eq_sum (g : ℕ → EReal) (t : ℕ) : running g t = ∑ j ∈ Finset.range (t + 1), g j := by
  induction t with
  | zero => simp [running]
  | succ t ih => rw [running, ih, Finset.sum_range_succ (n := t + 1)]

/-- After the last of the 128 steps the accumulator holds the sum over all features. -/
theorem running_tiles (f : Fin 65536 → EReal) : running (tileSum f) 127 = ∑ k : Fin 65536, f k := by
  rw [running_eq_sum, sum_tiles, ← Fin.sum_univ_eq_sum_range (fun j => tileSum f j) 128]
  exact Finset.sum_congr rfl fun j _ => tileSum_of_lt f j.val j.isLt

end Sae

end
-- ==== Proof.RefSae.lean ====
/-
  The reference program's stages are the specification's functions.

  Reading the reference one operation at a time at an index: the row-broadcast bias subtracted from x is `centred`; the
  product with the transposed encoder plus the broadcast bias is `pre`; the comparison against the broadcast exponential
  of the log-threshold, converted from one bit to a float, is `gate`; their product contracted against the transposed
  decoder, plus the bias, over 64, is `recon`. The reference's second result is a chain of operations applied to the
  reconstruction and x (subtract, square, sum over rows, divide by 512, sum, divide by 64): it is kept as one function
  `lossOf` of the reconstruction and never opened.
-/
import proofs.«137662_j39410619908486_1_alg».proof.Proof.Gen.ReferenceIdeal.Read
import proofs.«137662_j39410619908486_1_alg».proof.Proof.Sae

noncomputable section

open scoped BigOperators

namespace Cert.ReferenceIdeal.RefSae

open Cert.ReferenceIdeal Cert.ReferenceIdeal.Gen Cert.ReferenceIdeal.Read Idealize.ShloMosaic Idealize.ShloMosaic.ValueIdx

variable (x0 : (⟨S512x2048, .f32⟩ : BufTy).Contents (Elt Ideal)) (x1 : (⟨S65536x2048, .f32⟩ : BufTy).Contents (Elt Ideal)) (x2 : (⟨S65536, .f32⟩ : BufTy).Contents (Elt Ideal))
  (x3 : (⟨S2048x65536, .f32⟩ : BufTy).Contents (Elt Ideal)) (x4 : (⟨S2048, .f32⟩ : BufTy).Contents (Elt Ideal)) (x5 : (⟨S65536, .f32⟩ : BufTy).Contents (Elt Ideal))

/-- The subtraction of the row-broadcast decoder bias. -/
theorem centred_eq (n : Fin 512) (d : Fin 2048) : val_main_v2 (F := Ideal) x0 x4 (ix2 n d) = Sae.centred x0 x4 n d := by
  rw [val_main_v2_apply, val_main_v1_apply, val_main_v0_apply]
  have e : idx_main_v0 (idx_main_v1 (ix2 n d)) = ix1 d := funext fun a => by match a with | ⟨0, _⟩ => rfl
  rw [e]
  rfl

/-- The encoder's product with the transposed dictionary, plus the broadcast bias. -/
theorem pre_eq (n : Fin 512) (k : Fin 65536) : val_main_v7 (F := Ideal) x0 x1 x2 x4 (ix2 n k) = Sae.pre x0 x1 x2 x4 n k := by
  rw [val_main_v7_apply, val_main_v4_apply, val_main_v6_apply, val_main_v5_apply, Ideal.addf_def]
  have e6 : idx_main_v5 (idx_main_v6 (ix2 n k)) = ix1 k := funext fun a => by match a with | ⟨0, _⟩ => rfl
  rw [e6]
  unfold Sae.pre
  refine congrArg (· + x2 (ix1 k)) (Finset.sum_congr rfl fun d _ => ?_)
  have el : lidx_main_v4 (ix2 n k) d = ix2 n d := funext fun a => by match a with | ⟨0, _⟩ => rfl | ⟨1, _⟩ => rfl
  have er : idx_main_v3 (ridx_main_v4 (ix2 n k) d) = ix2 k d := funext fun a => by match a with | ⟨0, _⟩ => rfl | ⟨1, _⟩ => rfl
  rw [el, val_main_v3_apply, er, centred_eq]

/-- The comparison against the broadcast threshold, as a float. -/
theorem gate_eq (n : Fin 512) (k : Fin 65536) :
    val_main_v12 (F := Ideal) x0 x1 x2 x4 x5 (ix2 n k) = Sae.gate x0 x1 x2 x4 x5 n k := by
  rw [val_main_v12_apply, val_main_v11_apply, pre_eq, val_main_v10_apply, val_main_v9_apply, val_main_v8_apply]
  have e : idx_main_v9 (idx_main_v10 (ix2 n k)) = ix1 k := funext fun a => by match a with | ⟨0, _⟩ => rfl
  rw [e]
  rfl

/-- The reference's first result is the gate array. -/
theorem gateArr_eq : val_main_v12 (F := Ideal) x0 x1 x2 x4 x5 = Sae.gateArr x0 x1 x2 x4 x5 := by
  funext i
  obtain ⟨n, k, rfl⟩ : ∃ (n : Fin 512) (k : Fin 65536), i = ix2 n k := ⟨i 0, i 1, eq_ix2 i⟩
  exact gate_eq x0 x1 x2 x4 x5 n k

/-- The decoded, biased and rescaled row entry. -/
theorem recon_eq (n : Fin 512) (d : Fin 2048) :
    val_main_v20 (F := Ideal) x0 x1 x2 x3 x4 x5 (ix2 n d) = Sae.recon x0 x1 x2 x3 x4 x5 n d := by
  rw [val_main_v20_apply, val_main_v19_apply, val_main_cst_apply, val_main_v18_apply, val_main_v17_apply,
    val_main_v16_apply, val_main_v15_apply, Ideal.addf_def, Ideal.hostDivf_def]
  have e17 : idx_main_v16 (idx_main_v17 (ix2 n d)) = ix1 d := funext fun a => by match a with | ⟨0, _⟩ => rfl
  rw [e17]
  unfold Sae.recon
  refine congrArg (fun s => Ideal.div (s + x4 (ix1 d)) (Ideal.ofBits .f32 0x42800000#32)) (Finset.sum_congr rfl fun k _ => ?_)
  have el : lidx_main_v15 (ix2 n d) k = ix2 n k := funext fun a => by match a with | ⟨0, _⟩ => rfl | ⟨1, _⟩ => rfl
  have er : idx_main_v14 (ridx_main_v15 (ix2 n d) k) = ix2 d k := funext fun a => by match a with | ⟨0, _⟩ => rfl | ⟨1, _⟩ => rfl
  rw [el, val_main_v14_apply, er, val_main_v13_apply, pre_eq, gate_eq]
  rfl

/-- The reference's reconstruction stage is the reconstruction array. -/
theorem reconArr_eq : val_main_v20 (F := Ideal) x0 x1 x2 x3 x4 x5 = Sae.reconArr x0 x1 x2 x3 x4 x5 := by
  funext i
  obtain ⟨n, d, rfl⟩ : ∃ (n : Fin 512) (d : Fin 2048), i = ix2 n d := ⟨i 0, i 1, eq_ix2 i⟩
  exact recon_eq x0 x1 x2 x3 x4 x5 n d

/-- The loss as a function of the reconstruction and x: subtract, square, sum the rows, divide by 512, sum, divide by 64. -/
def lossOf (r x : (⟨S512x2048, .f32⟩ : BufTy).Contents (Elt Ideal)) : (⟨S_, .f32⟩ : BufTy).Contents (Elt Ideal) :=
  Host.divf (F := Ideal)
    (Host.reduceAdd (F := Ideal)
      (Host.divf (F := Ideal)
        (Host.reduceAdd (F := Ideal) (mulf (subf r x) (subf r x)) (constant (F := Ideal) S_ .f32 0x00000000#32)
          reducesTo_S512x2048_S2048_d0 h_S_)
        (broadcastInDim S2048 ![] bcast_S_S2048 (constant (F := Ideal) S_ .f32 0x44000000#32)))
      (constant (F := Ideal) S_ .f32 0x00000000#32) reducesTo_S2048_S_d0 h_S_)
    (constant (F := Ideal) S_ .f32 0x42800000#32)

/-- The reference's second result is that function of its reconstruction stage. -/
theorem loss_eq : val_main_v27 (F := Ideal) x0 x1 x2 x3 x4 x5 = lossOf (val_main_v20 (F := Ideal) x0 x1 x2 x3 x4 x5) x0 := rfl

end Cert.ReferenceIdeal.RefSae

end
-- ==== Proof.BodyPieces.lean ====
/-
  What the kernel body leaves behind at one grid point, case by case, as the body's own arithmetic.

  The body has three control cases: the first point (it resets the accumulator, then updates it), a middle point (it
  updates the accumulator it found), and the last point (it updates the accumulator and then stores the reconstruction).
  In every case the gate block is the gate arithmetic of the point's input blocks. The accumulator ends at the update
  arithmetic applied to the reset value (first point) or to what the point before left (other points). At the last point
  the reconstruction block is the rescaling arithmetic applied to that freshly updated accumulator and the bias block.
  Each statement holds for any float interpretation.
-/
import proofs.«137662_j39410619908486_1_alg».proof.Proof.Gen.KernelIdeal.Frame
import Idealize.ShloMosaic.Lib.Pipeline.Value
import Idealize.ShloMosaic.Lib.Tactic

set_option maxRecDepth 16384

noncomputable section

namespace Cert.KernelIdeal.BodyPieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-! ## The first point -/

theorem gate_first (c : Dev nD) (i : grid0.Coords) (a1 : Memref sig .tc .vmem S512x2048 .f32) (h1 : a1.IsWhole) (a2 : Memref sig .tc .vmem S512x2048 .f32) (h2 : a2.IsWhole) (a3 : Memref sig .tc .vmem S1x512 .f32) (h3 : a3.IsWhole) (a4 : Memref sig .tc .vmem S2048x512 .f32) (h4 : a4.IsWhole) (a5 : Memref sig .tc .vmem S1x2048 .f32) (h5 : a5.IsWhole) (a6 : Memref sig .tc .vmem S1x512 .f32) (h6 : a6.IsWhole) (a7 : Memref sig .tc .vmem S512x512 .f32) (h7 : a7.IsWhole) (a8 : Memref sig .tc .vmem S512x2048 .f32) (h8 : a8.IsWhole) (a9 : Memref sig .tc .vmem S512x2048 .f32) (h9 : a9.IsWhole) (hc0 : cond0_0 i) (hc1 : ¬cond0_1 i)
    (x0 : Vec F S512x2048 .f32) (x1 : Vec F S512x2048 .f32) (x2 : Vec F S1x512 .f32) (x3 : Vec F S2048x512 .f32) (x4 : Vec F S1x2048 .f32) (x5 : Vec F S1x512 .f32) :
    out0_A_6 c i a1 h1 a2 h2 a3 h3 a4 h4 a5 h5 a6 h6 a7 h7 a8 h8 a9 h9 hc0 hc1 x0 x1 x2 x3 x4 x5 = k0_pay4 x0 x1 x2 x5 := by
  unfold out0_A_6
  rw [View.read_writes_eq_canon _ _ _ (cover0_A_6 c i a1 h1 a2 h2 a3 h3 a4 h4 a5 h5 a6 h6 a7 h7 a8 h8 a9 h9 hc0 hc1 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h9.read_unread,
    View.ld_unit_zero (S := S512x2048) hz, View.ld_unit_zero (S := S1x512) hz, View.ld_unit_zero (S := S2048x512) hz,
    View.ld_unit_zero (S := S1x2048) hz, View.ld_unit_zero (S := S512x512) hz,
    View.readCov_unit_zero (S := S512x2048) _ hz]

theorem acc_first (c : Dev nD) (i : grid0.Coords) (a1 : Memref sig .tc .vmem S512x2048 .f32) (h1 : a1.IsWhole) (a2 : Memref sig .tc .vmem S512x2048 .f32) (h2 : a2.IsWhole) (a3 : Memref sig .tc .vmem S1x512 .f32) (h3 : a3.IsWhole) (a4 : Memref sig .tc .vmem S2048x512 .f32) (h4 : a4.IsWhole) (a5 : Memref sig .tc .vmem S1x2048 .f32) (h5 : a5.IsWhole) (a6 : Memref sig .tc .vmem S1x512 .f32) (h6 : a6.IsWhole) (a7 : Memref sig .tc .vmem S512x512 .f32) (h7 : a7.IsWhole) (a8 : Memref sig .tc .vmem S512x2048 .f32) (h8 : a8.IsWhole) (a9 : Memref sig .tc .vmem S512x2048 .f32) (h9 : a9.IsWhole) (hc0 : cond0_0 i) (hc1 : ¬cond0_1 i)
    (x0 : Vec F S512x2048 .f32) (x1 : Vec F S512x2048 .f32) (x2 : Vec F S1x512 .f32) (x3 : Vec F S2048x512 .f32) (x4 : Vec F S1x2048 .f32) (x5 : Vec F S1x512 .f32) :
    sout0_A_0 c i a1 h1 a2 h2 a3 h3 a4 h4 a5 h5 a6 h6 a7 h7 a8 h8 a9 h9 hc0 hc1 x0 x1 x2 x3 x4 x5 = k0_pay5 x0 x1 x2 x5 x3 (k0_pay2 (F := F)) := by
  unfold sout0_A_0
  rw [View.read_writes_eq_canon _ _ _ (scover0_A_0 c i a1 h1 a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S512x2048) hz, View.readCov_unit_zero (S := S512x2048) _ hz]
  simp only [View.readAt_eq_ld, h1.read_unread, h2.read_unread, h3.read_unread, h4.read_unread, h5.read_unread, h6.read_unread, h9.read_unread,
    View.ld_unit_zero (S := S512x2048) hz, View.ld_unit_zero (S := S1x512) hz, View.ld_unit_zero (S := S2048x512) hz,
    View.ld_unit_zero (S := S1x2048) hz, View.ld_unit_zero (S := S512x512) hz,
    View.readCov_unit_zero (S := S512x2048) _ hz]

/-! ## A middle point -/

theorem gate_mid (c : Dev nD) (i : grid0.Coords) (a1 : Memref sig .tc .vmem S512x2048 .f32) (h1 : a1.IsWhole) (a2 : Memref sig .tc .vmem S512x2048 .f32) (h2 : a2.IsWhole) (a3 : Memref sig .tc .vmem S1x512 .f32) (h3 : a3.IsWhole) (a4 : Memref sig .tc .vmem S2048x512 .f32) (h4 : a4.IsWhole) (a5 : Memref sig .tc .vmem S1x2048 .f32) (h5 : a5.IsWhole) (a6 : Memref sig .tc .vmem S1x512 .f32) (h6 : a6.IsWhole) (a7 : Memref sig .tc .vmem S512x512 .f32) (h7 : a7.IsWhole) (a8 : Memref sig .tc .vmem S512x2048 .f32) (h8 : a8.IsWhole) (a9 : Memref sig .tc .vmem S512x2048 .f32) (h9 : a9.IsWhole) (hc0 : ¬cond0_0 i) (hc1 : ¬cond0_1 i)
    (x0 : Vec F S512x2048 .f32) (x1 : Vec F S512x2048 .f32) (x2 : Vec F S1x512 .f32) (x3 : Vec F S2048x512 .f32) (x4 : Vec F S1x2048 .f32) (x5 : Vec F S1x512 .f32) (xs0 : Vec F S512x2048 .f32) :
    out0_B_6 c i a1 h1 a2 h2 a3 h3 a4 h4 a5 h5 a6 h6 a7 h7 a8 h8 a9 h9 hc0 hc1 x0 x1 x2 x3 x4 x5 xs0 = k0_pay4 x0 x1 x2 x5 := by
  unfold out0_B_6
  rw [View.read_writes_eq_canon _ _ _ (cover0_B_6 c i a1 h1 a2 h2 a3 h3 a4 h4 a5 h5 a6 h6 a7 h7 a8 h8 a9 h9 hc0 hc1 x0 x1 x2 x3 x4 x5 xs0)]
  unfold kernelRun0_B
  dsimp only
  sl_unfold_words
  rw [View.canon_unit_zero hz]
  simp only [View.readAt_eq_ld, h1.read_unread, h2.read_unread, h3.read_unread, h4.read_unread, h5.read_unread, h6.read_unread, h9.read_unread,
    View.ld_unit_zero (S := S512x2048) hz, View.ld_unit_zero (S := S1x512) hz, View.ld_unit_zero (S := S2048x512) hz,
    View.ld_unit_zero (S := S1x2048) hz, View.ld_unit_zero (S := S512x512) hz,
    View.readCov_unit_zero (S := S512x2048) _ hz]

theorem acc_mid (c : Dev nD) (i : grid0.Coords) (a1 : Memref sig .tc .vmem S512x2048 .f32) (h1 : a1.IsWhole) (a2 : Memref sig .tc .vmem S512x2048 .f32) (h2 : a2.IsWhole) (a3 : Memref sig .tc .vmem S1x512 .f32) (h3 : a3.IsWhole) (a4 : Memref sig .tc .vmem S2048x512 .f32) (h4 : a4.IsWhole) (a5 : Memref sig .tc .vmem S1x2048 .f32) (h5 : a5.IsWhole) (a6 : Memref sig .tc .vmem S1x512 .f32) (h6 : a6.IsWhole) (a7 : Memref sig .tc .vmem S512x512 .f32) (h7 : a7.IsWhole) (a8 : Memref sig .tc .vmem S512x2048 .f32) (h8 : a8.IsWhole) (a9 : Memref sig .tc .vmem S512x2048 .f32) (h9 : a9.IsWhole) (hc0 : ¬cond0_0 i) (hc1 : ¬cond0_1 i)
    (x0 : Vec F S512x2048 .f32) (x1 : Vec F S512x2048 .f32) (x2 : Vec F S1x512 .f32) (x3 : Vec F S2048x512 .f32) (x4 : Vec F S1x2048 .f32) (x5 : Vec F S1x512 .f32) (xs0 : Vec F S512x2048 .f32) :
    sout0_B_0 c i a1 h1 a2 h2 a3 h3 a4 h4 a5 h5 a6 h6 a7 h7 a8 h8 a9 h9 hc0 hc1 x0 x1 x2 x3 x4 x5 xs0 = k0_pay5 x0 x1 x2 x5 x3 xs0 := by
  unfold sout0_B_0
  rw [View.read_writes_eq_canon _ _ _ (scover0_B_0 c i a1 h1 a2 h2 a3 h3 a4 h4 a5 h5 a6 h6 a7 h7 a8 h8 a9 h9 hc0 hc1 x0 x1 x2 x3 x4 x5 xs0)]
  unfold kernelRun0_B
  dsimp only
  sl_unfold_words
  rw [View.canon_unit_zero hz]
  simp only [View.readAt_eq_ld, h1.read_unread, h2.read_unread, h3.read_unread, h4.read_unread, h5.read_unread, h6.read_unread, h9.read_unread,
    View.ld_unit_zero (S := S512x2048) hz, View.ld_unit_zero (S := S1x512) hz, View.ld_unit_zero (S := S2048x512) hz,
    View.ld_unit_zero (S := S1x2048) hz, View.ld_unit_zero (S := S512x512) hz,
    View.readCov_unit_zero (S := S512x2048) _ hz]

/-! ## The last point -/

theorem gate_last (c : Dev nD) (i : grid0.Coords) (a1 : Memref sig .tc .vmem S512x2048 .f32) (h1 : a1.IsWhole) (a2 : Memref sig .tc .vmem S512x2048 .f32) (h2 : a2.IsWhole) (a3 : Memref sig .tc .vmem S1x512 .f32) (h3 : a3.IsWhole) (a4 : Memref sig .tc .vmem S2048x512 .f32) (h4 : a4.IsWhole) (a5 : Memref sig .tc .vmem S1x2048 .f32) (h5 : a5.IsWhole) (a6 : Memref sig .tc .vmem S1x512 .f32) (h6 : a6.IsWhole) (a7 : Memref sig .tc .vmem S512x512 .f32) (h7 : a7.IsWhole) (a8 : Memref sig .tc .vmem S512x2048 .f32) (h8 : a8.IsWhole) (a9 : Memref sig .tc .vmem S512x2048 .f32) (h9 : a9.IsWhole) (hc0 : ¬cond0_0 i) (hc1 : cond0_1 i)
    (x0 : Vec F S512x2048 .f32) (x1 : Vec F S512x2048 .f32) (x2 : Vec F S1x512 .f32) (x3 : Vec F S2048x512 .f32) (x4 : Vec F S1x2048 .f32) (x5 : Vec F S1x512 .f32) (xs0 : Vec F S512x2048 .f32) :
    out0_C_6 c i a1 h1 a2 h2 a3 h3 a4 h4 a5 h5 a6 h6 a7 h7 a8 h8 a9 h9 hc0 hc1 x0 x1 x2 x3 x4 x5 xs0 = k0_pay4 x0 x1 x2 x5 := by
  unfold out0_C_6
  rw [View.read_writes_eq_canon _ _ _ (cover0_C_6 c i a1 h1 a2 h2 a3 h3 a4 h4 a5 h5 a6 h6 a7 h7 a8 h8 a9 h9 hc0 hc1 x0 x1 x2 x3 x4 x5 xs0)]
  unfold kernelRun0_C
  dsimp only
  sl_unfold_words
  rw [View.canon_unit_zero hz]
  simp only [View.readAt_eq_ld, h1.read_unread, h2.read_unread, h3.read_unread, h4.read_unread, h5.read_unread, h6.read_unread, h9.read_unread,
    View.ld_unit_zero (S := S512x2048) hz, View.ld_unit_zero (S := S1x512) hz, View.ld_unit_zero (S := S2048x512) hz,
    View.ld_unit_zero (S := S1x2048) hz, View.ld_unit_zero (S := S512x512) hz,
    View.readCov_unit_zero (S := S512x2048) _ hz]

theorem acc_last (c : Dev nD) (i : grid0.Coords) (a1 : Memref sig .tc .vmem S512x2048 .f32) (h1 : a1.IsWhole) (a2 : Memref sig .tc .vmem S512x2048 .f32) (h2 : a2.IsWhole) (a3 : Memref sig .tc .vmem S1x512 .f32) (h3 : a3.IsWhole) (a4 : Memref sig .tc .vmem S2048x512 .f32) (h4 : a4.IsWhole) (a5 : Memref sig .tc .vmem S1x2048 .f32) (h5 : a5.IsWhole) (a6 : Memref sig .tc .vmem S1x512 .f32) (h6 : a6.IsWhole) (a7 : Memref sig .tc .vmem S512x512 .f32) (h7 : a7.IsWhole) (a8 : Memref sig .tc .vmem S512x2048 .f32) (h8 : a8.IsWhole) (a9 : Memref sig .tc .vmem S512x2048 .f32) (h9 : a9.IsWhole) (hc0 : ¬cond0_0 i) (hc1 : cond0_1 i)
    (x0 : Vec F S512x2048 .f32) (x1 : Vec F S512x2048 .f32) (x2 : Vec F S1x512 .f32) (x3 : Vec F S2048x512 .f32) (x4 : Vec F S1x2048 .f32) (x5 : Vec F S1x512 .f32) (xs0 : Vec F S512x2048 .f32) :
    sout0_C_0 c i a1 h1 a2 h2 a3 h3 a4 h4 a5 h5 a6 h6 a7 h7 a8 h8 a9 h9 hc0 hc1 x0 x1 x2 x3 x4 x5 xs0 = k0_pay5 x0 x1 x2 x5 x3 xs0 := by
  unfold sout0_C_0
  rw [View.read_writes_eq_canon _ _ _ (scover0_C_0 c i a1 h1 a2 h2 a3 h3 a4 h4 a5 h5 a6 h6 a7 h7 a8 h8 a9 h9 hc0 hc1 x0 x1 x2 x3 x4 x5 xs0)]
  unfold kernelRun0_C
  dsimp only
  sl_unfold_words
  rw [View.canon_unit_zero hz]
  simp only [View.readAt_eq_ld, h1.read_unread, h2.read_unread, h3.read_unread, h4.read_unread, h5.read_unread, h6.read_unread, h9.read_unread,
    View.ld_unit_zero (S := S512x2048) hz, View.ld_unit_zero (S := S1x512) hz, View.ld_unit_zero (S := S2048x512) hz,
    View.ld_unit_zero (S := S1x2048) hz, View.ld_unit_zero (S := S512x512) hz,
    View.readCov_unit_zero (S := S512x2048) _ hz]

theorem recon_last (c : Dev nD) (i : grid0.Coords) (a1 : Memref sig .tc .vmem S512x2048 .f32) (h1 : a1.IsWhole) (a2 : Memref sig .tc .vmem S512x2048 .f32) (h2 : a2.IsWhole) (a3 : Memref sig .tc .vmem S1x512 .f32) (h3 : a3.IsWhole) (a4 : Memref sig .tc .vmem S2048x512 .f32) (h4 : a4.IsWhole) (a5 : Memref sig .tc .vmem S1x2048 .f32) (h5 : a5.IsWhole) (a6 : Memref sig .tc .vmem S1x512 .f32) (h6 : a6.IsWhole) (a7 : Memref sig .tc .vmem S512x512 .f32) (h7 : a7.IsWhole) (a8 : Memref sig .tc .vmem S512x2048 .f32) (h8 : a8.IsWhole) (a9 : Memref sig .tc .vmem S512x2048 .f32) (h9 : a9.IsWhole) (hc0 : ¬cond0_0 i) (hc1 : cond0_1 i)
    (x0 : Vec F S512x2048 .f32) (x1 : Vec F S512x2048 .f32) (x2 : Vec F S1x512 .f32) (x3 : Vec F S2048x512 .f32) (x4 : Vec F S1x2048 .f32) (x5 : Vec F S1x512 .f32) (xs0 : Vec F S512x2048 .f32) :
    out0_C_7 c i a1 h1 a2 h2 a3 h3 a4 h4 a5 h5 a6 h6 a7 h7 a8 h8 a9 h9 hc0 hc1 x0 x1 x2 x3 x4 x5 xs0 = k0_pay1 (k0_pay5 x0 x1 x2 x5 x3 xs0) x4 := by
  unfold out0_C_7
  rw [View.read_writes_eq_canon _ _ _ (cover0_C_7 c i a1 h1 a2 h2 a3 h3 a4 h4 a5 h5 a6 h6 a7 h7 a8 h8 a9 h9 hc0 hc1 x0 x1 x2 x3 x4 x5 xs0)]
  unfold kernelRun0_C
  dsimp only
  sl_unfold_words
  rw [View.canon_unit_zero hz]
  simp only [View.readAt_eq_ld, h1.read_unread, h2.read_unread, h3.read_unread, h4.read_unread, h5.read_unread, h6.read_unread, h9.read_unread,
    View.ld_unit_zero (S := S512x2048) hz, View.ld_unit_zero (S := S1x512) hz, View.ld_unit_zero (S := S2048x512) hz,
    View.ld_unit_zero (S := S1x2048) hz, View.ld_unit_zero (S := S512x512) hz,
    View.readCov_unit_zero (S := S512x2048) _ hz]

end Cert.KernelIdeal.BodyPieces

end
-- ==== Proof.LibDotTransposedRhs.lean ====
/-
  The product of an M×K array with the transpose of an N×K array — both operands contracted on their LAST axis, no batch
  axis —, read at an output index (r, c), is the sum over the one contracted coordinate k of the left operand at (r, k)
  times the right operand at (c, k). Stated once for those dimension numbers (`DotDims.transposedRhs`), for a product
  into a zero accumulator inside a kernel body and for the host's product, both over the extended reals. A program's own
  dimension-number record of this form is equal to that one by unfolding.
-/
import Idealize.ShloMosaic.PureOps.Ideal.Laws
import Idealize.ShloMosaic.Lib.ValueIdx

noncomputable section

open scoped BigOperators

namespace TransposedRhsDot

open Idealize.ShloMosaic Idealize.ShloMosaic.ValueIdx

variable (M K N : Nat)

/-- The left operand's index at output index `j` and contraction index `q`: the row of `j`, … -/
theorem lhs0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
/-- … and the contracted coordinate. -/
theorem lhs1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q
/-- The right operand's index: the COLUMN of `j` (the right operand's rows are the output's columns), … -/
theorem rhs0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
/-- … and the contracted coordinate. -/
theorem rhs1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The contraction's sum at the output index (r, c), re-indexed by the one contracted coordinate. -/
theorem sum_eq (x : (⟨2, ![M, K]⟩ : Shape).Idx → EReal) (w : (⟨2, ![N, K]⟩ : Shape).Idx → EReal) (r : Fin M) (c : Fin N) :
    ∑ q : (DotDims.transposedRhs M K N).contr.Idx,
        x ((DotDims.transposedRhs M K N).lhsIdx (ix2 r c) q) * w ((DotDims.transposedRhs M K N).rhsIdx (ix2 r c) q)
      = ∑ k : Fin K, x (ix2 r k) * w (ix2 c k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k)
      = ix2 r k := funext fun a => Fin.ext (by
    match a with
    | ⟨0, _⟩ => exact lhs0 M K N _ _
    | ⟨1, _⟩ => exact (lhs1 M K N _ _).trans hk)
  have er : (DotDims.transposedRhs M K N).rhsIdx (ix2 r c) ((contrEquiv1 (DotDims.transposedRhs M K N) K rfl rfl).symm k)
      = ix2 c k := funext fun a => Fin.ext (by
    match a with
    | ⟨0, _⟩ => exact rhs0 M K N _ _
    | ⟨1, _⟩ => exact (rhs1 M K N _ _).trans hk)
  rw [el, er]

/-- A kernel's product into the zero accumulator, at (r, c). -/
theorem matmul_zero_apply {φ₁ φ₂ : FTy} (x : FVec Ideal ⟨2, ![M, K]⟩ φ₁) (w : FVec Ideal ⟨2, ![N, K]⟩ φ₂) (r : Fin M) (c : Fin N) :
    FloatOps.matmul (DotDims.transposedRhs M K N) none x w (constant ⟨2, ![M, N]⟩ .f32 0x00000000#32) (ix2 r c)
      = ∑ k : Fin K, x (ix2 r k) * w (ix2 c k) := by
  rw [Ideal.matmul_constant_zero_apply]
  exact sum_eq M K N x w r c

/-- The host's product, at (r, c). -/
theorem dotGeneral_apply {φ₁ φ₂ : FTy} (sched : HostSchedule) (x : FVec Ideal ⟨2, ![M, K]⟩ φ₁) (w : FVec Ideal ⟨2, ![N, K]⟩ φ₂)
    (r : Fin M) (c : Fin N) :
    FloatOps.dotGeneral (DotDims.transposedRhs M K N) none sched x w (ix2 r c)
      = ∑ k : Fin K, x (ix2 r k) * w (ix2 c k) := by
  rw [Ideal.dotGeneral_apply]
  exact sum_eq M K N x w r c

end TransposedRhsDot

end
-- ==== Proof.BodyValues.lean ====
/-
  The kernel body's arithmetic at one grid point, read at an index over the extended reals.

  The body sees a 512 x 2048 block of centred inputs, one tile of 512 encoder rows (512 x 2048), the tile's 512 encoder
  biases and log-thresholds (rows of shape 1 x 512), the tile's decoder columns (2048 x 512), the decoder bias (1 x 2048)
  and the running 512 x 2048 accumulator. Changes of float format are the identity here, a product into a zero
  accumulator is the plain sum over the contracted coordinate, and a shape cast to the same shape does nothing, so:

    pre-activation   (n, q) : (sum over d of centred n d * enc q d) + bias q
    gate             (n, q) : the one-bit comparison  pre n q > exp (lthr q), read as 0 or 1
    new accumulator  (n, d) : acc n d + sum over q of (pre n q * gate n q) * dec d q
    reconstruction   (n, d) : (acc n d + dec_b d) / 64
    the reset value         : 0 everywhere
-/
import proofs.«137662_j39410619908486_1_alg».proof.Proof.Gen.KernelIdeal.Skeleton
import proofs.«137662_j39410619908486_1_alg».proof.Proof.Sae
import proofs.«137662_j39410619908486_1_alg».proof.Proof.LibDotTransposedRhs
import Idealize.ShloMosaic.Lib.ValueLayout

noncomputable section

open scoped BigOperators

namespace Cert.KernelIdeal.BodyValues

open Cert.KernelIdeal Cert.KernelIdeal.Gen Idealize.ShloMosaic Idealize.ShloMosaic.ValueIdx

/-- The encoder tile's product contracts both operands on their last axis. -/
theorem encDims : dot_S512x2048_S512x2048_S512x512_1_1_0_0_n_n = DotDims.transposedRhs 512 2048 512 := rfl

/-- So does the decoder tile's. -/
theorem decDims : dot_S512x512_S2048x512_S512x2048_1_1_0_0_n_n = DotDims.transposedRhs 512 512 2048 := rfl

/-- The tile's pre-activation at row `n`, feature `q` of the tile. -/
theorem pre_apply (x0 x1 : FVec Ideal S512x2048 .f32) (x2 : FVec Ideal S1x512 .f32) (n q : Fin 512) :
    k0_pay3 (F := Ideal) x0 x1 x2 (ix2 n q)
      = (∑ d : Fin 2048, x0 (ix2 n d) * x1 (ix2 q d)) + x2 (ix2 (0 : Fin 1) q) := by
  unfold k0_pay3
  simp only [shapeCast_self]
  rw [addf_apply, encDims]
  refine congrArg₂ (· + ·) ?_ ?_
  · exact TransposedRhsDot.matmul_zero_apply 512 2048 512 (truncf .bf16 x0 bitsLt_bf16_f32) (truncf .bf16 x1 bitsLt_bf16_f32) n q
  · exact broadcastTo_1b_ab_apply x2 broadcasts_S1x512_S512x512 n q

/-- The tile's gate at row `n`, feature `q`: the comparison against the exponential of the log-threshold, as 0 or 1. -/
theorem gate_apply (x0 x1 : FVec Ideal S512x2048 .f32) (x2 x5 : FVec Ideal S1x512 .f32) (n q : Fin 512) :
    k0_pay4 (F := Ideal) x0 x1 x2 x5 (ix2 n q)
      = Sae.unit01 (Ideal.cmp .ogt (k0_pay3 (F := Ideal) x0 x1 x2 (ix2 n q)) (Ideal.exp (x5 (ix2 (0 : Fin 1) q)))) := by
  unfold k0_pay4
  simp only [shapeCast_self]
  rw [sitofp_apply, extui_apply, cmpf_apply, broadcastTo_1b_ab_apply]
  exact Sae.unit01_of_signed _

/-- The accumulator after the point's update, at row `n`, input coordinate `d`. -/
theorem acc_apply (x0 x1 : FVec Ideal S512x2048 .f32) (x2 x5 : FVec Ideal S1x512 .f32) (x3 : FVec Ideal S2048x512 .f32)
    (acc : FVec Ideal S512x2048 .f32) (n : Fin 512) (d : Fin 2048) :
    k0_pay5 (F := Ideal) x0 x1 x2 x5 x3 acc (ix2 n d)
      = acc (ix2 n d) + ∑ q : Fin 512,
          (k0_pay3 (F := Ideal) x0 x1 x2 (ix2 n q) * k0_pay4 (F := Ideal) x0 x1 x2 x5 (ix2 n q)) * x3 (ix2 d q) := by
  unfold k0_pay5
  simp only [shapeCast_self]
  rw [addf_apply, decDims]
  refine congrArg (acc (ix2 n d) + ·) ?_
  exact TransposedRhsDot.matmul_zero_apply 512 512 2048
    (truncf .bf16 (mulf (k0_pay3 (F := Ideal) x0 x1 x2) (k0_pay4 (F := Ideal) x0 x1 x2 x5)) bitsLt_bf16_f32)
    (truncf .bf16 x3 bitsLt_bf16_f32) n d

/-- The reconstruction the last point stores, at row `n`, input coordinate `d`. -/
theorem recon_apply (acc : FVec Ideal S512x2048 .f32) (x4 : FVec Ideal S1x2048 .f32) (n : Fin 512) (d : Fin 2048) :
    k0_pay1 (F := Ideal) acc x4 (ix2 n d)
      = Ideal.div (acc (ix2 n d) + x4 (ix2 (0 : Fin 1) d)) (Ideal.ofBits .f32 0x42800000#32) := by
  unfold k0_pay1
  simp only [shapeCast_self]
  rw [divf_apply, addf_apply, broadcastTo_1b_ab_apply]
  rfl

/-- The value the first point resets the accumulator to. -/
theorem reset_apply (i : S512x2048.Idx) : (k0_pay2 (F := Ideal)) i = 0 := by
  unfold k0_pay2
  simp only [shapeCast_self]
  exact Ideal.ofBits_zero_f32

end Cert.KernelIdeal.BodyValues

end
-- ==== Proof.Blocks.lean ====
/-
  What the kernel's windows hold at grid point t, read from the program's arguments.

  Point t is tile t of the feature axis: features 512 t .. 512 t + 511. The centred input (x minus the row-broadcast
  decoder bias, computed on the host before the region) and the decoder bias row are staged whole at every point; the
  encoder rows, encoder biases, log-thresholds and decoder columns are staged one tile at a time. So, at point t:

    centred block (n, d) = x n d - dec_b d              encoder block (q, d) = enc_w (512 t + q) d
    bias block (0, q)    = enc_b (512 t + q)            threshold block (0, q) = lthr (512 t + q)
    decoder block (d, q) = dec_w d (512 t + q)          decoder-bias block (0, d) = dec_b d
-/
import proofs.«137662_j39410619908486_1_alg».proof.Proof.Gen.KernelIdeal.Frame
import proofs.«137662_j39410619908486_1_alg».proof.Proof.Sae
import Idealize.ShloMosaic.Lib.Pipeline.Value
import Idealize.ShloMosaic.Lib.ValueLayout
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The arguments and the blocks, typed by their literal shapes -/

abbrev argX (c : Dev nD) : FVec Ideal S512x2048 .f32 := m ((c : Thread nD τ).loc main_arg0)
abbrev argEncW (c : Dev nD) : FVec Ideal S65536x2048 .f32 := m ((c : Thread nD τ).loc main_arg1)
abbrev argEncB (c : Dev nD) : FVec Ideal S65536 .f32 := m ((c : Thread nD τ).loc main_arg2)
abbrev argDecW (c : Dev nD) : FVec Ideal S2048x65536 .f32 := m ((c : Thread nD τ).loc main_arg3)
abbrev argDecB (c : Dev nD) : FVec Ideal S2048 .f32 := m ((c : Thread nD τ).loc main_arg4)
abbrev argLthr (c : Dev nD) : FVec Ideal S65536 .f32 := m ((c : Thread nD τ).loc main_arg5)

abbrev blkCentred (c : Dev nD) (t : Fin cfg0.N) : FVec Ideal S512x2048 .f32 := iblk m c 0 t
abbrev blkEncW (c : Dev nD) (t : Fin cfg0.N) : FVec Ideal S512x2048 .f32 := iblk m c 1 t
abbrev blkEncB (c : Dev nD) (t : Fin cfg0.N) : FVec Ideal S1x512 .f32 := iblk m c 2 t
abbrev blkDecW (c : Dev nD) (t : Fin cfg0.N) : FVec Ideal S2048x512 .f32 := iblk m c 3 t
abbrev blkDecB (c : Dev nD) (t : Fin cfg0.N) : FVec Ideal S1x2048 .f32 := iblk m c 4 t
abbrev blkLthr (c : Dev nD) (t : Fin cfg0.N) : FVec Ideal S1x512 .f32 := iblk m c 5 t

/-- The grid point as a tile number. -/
def tileOf (t : Fin cfg0.N) : Fin 128 := ⟨t.val, lt_of_lt_of_eq t.isLt (show cfg0.N = 128 from N_0)⟩

@[simp] theorem tileOf_val (t : Fin cfg0.N) : (tileOf t).val = t.val := rfl

/-- Where each window's block sits at point t: the tiled windows move along the feature axis, the others stay. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-! ## The host lines before the region -/

theorem V_centred (c : Dev nD) : (V m c main_v2 : FVec Ideal S512x2048 .f32)
    = subf (argX m c) (broadcastInDim S512x2048 ![0, 1] bcast_S1x2048_S512x2048_0_1
        (broadcastInDim S1x2048 ![1] bcast_S2048_S1x2048_1 (argDecB m c))) := by
  show StableHlo.after hostOps0 (fun b => m (c, b)) (Proc.devRef .tc main_v2) = _
  after_results

theorem V_encB (c : Dev nD) : (V m c main_v3 : FVec Ideal S1x65536 .f32)
    = shapeCast S1x65536 (argEncB m c) shapeCasts_S65536_S1x65536 := by
  show StableHlo.after hostOps0 (fun b => m (c, b)) (Proc.devRef .tc main_v3) = _
  after_results
  rfl

theorem V_lthr (c : Dev nD) : (V m c main_v4 : FVec Ideal S1x65536 .f32)
    = shapeCast S1x65536 (argLthr m c) shapeCasts_S65536_S1x65536 := by
  show StableHlo.after hostOps0 (fun b => m (c, b)) (Proc.devRef .tc main_v4) = _
  after_results
  rfl

theorem V_decB (c : Dev nD) : (V m c main_v5 : FVec Ideal S1x2048 .f32)
    = shapeCast S1x2048 (argDecB m c) shapeCasts_S2048_S1x2048 := by
  show StableHlo.after hostOps0 (fun b => m (c, b)) (Proc.devRef .tc main_v5) = _
  after_results
  rfl

/-- The centred input at an index. -/
theorem centred_apply (c : Dev nD) (n : Fin 512) (d : Fin 2048) :
    (V m c main_v2 : FVec Ideal S512x2048 .f32) (ix2 n d) = argX m c (ix2 n d) - argDecB m c (ix1 d) := by
  rw [V_centred, subf_apply]
  refine congrArg (argX m c (ix2 n d) - ·) ?_
  refine (broadcastInDim_apply _ bcast_S1x2048_S512x2048_0_1 _ (ix2 n d) (ix2 (0 : Fin 1) d) (fun a => match a with
    | ⟨0, _⟩ => by show 0 = if (1 : Nat) = 1 then 0 else n.val; rw [if_pos rfl]
    | ⟨1, _⟩ => by show d.val = if (2048 : Nat) = 1 then 0 else d.val; rw [if_neg (by decide)])).trans ?_
  exact broadcastInDim_apply _ bcast_S2048_S1x2048_1 _ (ix2 (0 : Fin 1) d) (ix1 d) (fun a => match a with
    | ⟨0, _⟩ => by show d.val = if (2048 : Nat) = 1 then 0 else d.val; rw [if_neg (by decide)])

/-! ## The blocks at a point -/

theorem blkCentred_apply (c : Dev nD) (t : Fin cfg0.N) (n : Fin 512) (d : Fin 2048) :
    blkCentred m c t (ix2 n d) = argX m c (ix2 n d) - argDecB m c (ix1 d) := by
  obtain ⟨e00, e01, -⟩ := idx_facts t
  refine Eq.trans ?_ (centred_apply m c n d)
  show V m c main_v2 (((cfg0.win 0).blk t).view.emb (ix2 n d)) = V m c main_v2 (ix2 n d)
  refine congrArg (V m c main_v2) (funext fun a => Fin.ext ?_)
  match a with
  | ⟨0, _⟩ => show win0_0.index t (0 : Fin 2) * 512 + 1 * n.val = n.val; omega
  | ⟨1, _⟩ => show win0_0.index t (1 : Fin 2) * 2048 + 1 * d.val = d.val; omega

theorem blkEncW_apply (c : Dev nD) (t : Fin cfg0.N) (q : Fin 512) (d : Fin 2048) :
    blkEncW m c t (ix2 q d) = argEncW m c (ix2 (Sae.col (tileOf t) q) d) := by
  obtain ⟨-, -, e10, e11, -⟩ := idx_facts t
  show V m c main_arg1 (((cfg0.win 1).blk t).view.emb (ix2 q d)) = _
  rw [V_main_arg1]
  refine congrArg (m ((c : Thread nD τ).loc main_arg1)) (funext fun a => Fin.ext ?_)
  match a with
  | ⟨0, _⟩ => show win0_1.index t (0 : Fin 2) * 512 + 1 * q.val = 512 * t.val + q.val; omega
  | ⟨1, _⟩ => show win0_1.index t (1 : Fin 2) * 2048 + 1 * d.val = d.val; omega

theorem blkEncB_apply (c : Dev nD) (t : Fin cfg0.N) (q : Fin 512) :
    blkEncB m c t (ix2 (0 : Fin 1) q) = argEncB m c (ix1 (Sae.col (tileOf t) q)) := by
  obtain ⟨-, -, -, -, e20, e21, -⟩ := idx_facts t
  refine Eq.trans ?_ ((congrFun (V_encB m c) (ix2 (0 : Fin 1) (Sae.col (tileOf t) q))).trans
    (shapeCast_a_1a_apply (argEncB m c) shapeCasts_S65536_S1x65536 (0 : Fin 1) (Sae.col (tileOf t) q)))
  show V m c main_v3 (((cfg0.win 2).blk t).view.emb (ix2 (0 : Fin 1) q)) = V m c main_v3 (ix2 (0 : Fin 1) (Sae.col (tileOf t) q))
  refine congrArg (V m c main_v3) (funext fun a => Fin.ext ?_)
  match a with
  | ⟨0, _⟩ => show win0_2.index t (0 : Fin 2) * 1 + 1 * 0 = 0; omega
  | ⟨1, _⟩ => show win0_2.index t (1 : Fin 2) * 512 + 1 * q.val = 512 * t.val + q.val; omega

theorem blkDecW_apply (c : Dev nD) (t : Fin cfg0.N) (d : Fin 2048) (q : Fin 512) :
    blkDecW m c t (ix2 d q) = argDecW m c (ix2 d (Sae.col (tileOf t) q)) := by
  obtain ⟨-, -, -, -, -, -, e30, e31, -⟩ := idx_facts t
  show V m c main_arg3 (((cfg0.win 3).blk t).view.emb (ix2 d q)) = _
  rw [V_main_arg3]
  refine congrArg (m ((c : Thread nD τ).loc main_arg3)) (funext fun a => Fin.ext ?_)
  match a with
  | ⟨0, _⟩ => show win0_3.index t (0 : Fin 2) * 2048 + 1 * d.val = d.val; omega
  | ⟨1, _⟩ => show win0_3.index t (1 : Fin 2) * 512 + 1 * q.val = 512 * t.val + q.val; omega

theorem blkDecB_apply (c : Dev nD) (t : Fin cfg0.N) (d : Fin 2048) :
    blkDecB m c t (ix2 (0 : Fin 1) d) = argDecB m c (ix1 d) := by
  obtain ⟨-, -, -, -, -, -, -, -, e40, e41, -⟩ := idx_facts t
  refine Eq.trans ?_ ((congrFun (V_decB m c) (ix2 (0 : Fin 1) d)).trans
    (shapeCast_a_1a_apply (argDecB m c) shapeCasts_S2048_S1x2048 (0 : Fin 1) d))
  show V m c main_v5 (((cfg0.win 4).blk t).view.emb (ix2 (0 : Fin 1) d)) = V m c main_v5 (ix2 (0 : Fin 1) d)
  refine congrArg (V m c main_v5) (funext fun a => Fin.ext ?_)
  match a with
  | ⟨0, _⟩ => show win0_4.index t (0 : Fin 2) * 1 + 1 * 0 = 0; omega
  | ⟨1, _⟩ => show win0_4.index t (1 : Fin 2) * 2048 + 1 * d.val = d.val; omega

theorem blkLthr_apply (c : Dev nD) (t : Fin cfg0.N) (q : Fin 512) :
    blkLthr m c t (ix2 (0 : Fin 1) q) = argLthr m c (ix1 (Sae.col (tileOf t) q)) := by
  obtain ⟨-, -, -, -, -, -, -, -, -, -, e50, e51⟩ := idx_facts t
  refine Eq.trans ?_ ((congrFun (V_lthr m c) (ix2 (0 : Fin 1) (Sae.col (tileOf t) q))).trans
    (shapeCast_a_1a_apply (argLthr m c) shapeCasts_S65536_S1x65536 (0 : Fin 1) (Sae.col (tileOf t) q)))
  show V m c main_v4 (((cfg0.win 5).blk t).view.emb (ix2 (0 : Fin 1) q)) = V m c main_v4 (ix2 (0 : Fin 1) (Sae.col (tileOf t) q))
  refine congrArg (V m c main_v4) (funext fun a => Fin.ext ?_)
  match a with
  | ⟨0, _⟩ => show win0_5.index t (0 : Fin 2) * 1 + 1 * 0 = 0; omega
  | ⟨1, _⟩ => show win0_5.index t (1 : Fin 2) * 512 + 1 * q.val = 512 * t.val + q.val; omega

end Cert.KernelIdeal.Blocks

end
-- ==== Proof.Accumulate.lean ====
/-
  The kernel's buffers after each grid point, as the specification's functions.

  After point t the gate buffer holds the gate of tile t; the accumulator, which the first point starts from 0 and every
  point adds its tile's decoded shares to, holds the running sum of tiles 0..t; and after the last point the
  reconstruction buffer holds that accumulator plus the bias, over 64. The running sum is proved by induction on the
  point, the three control cases supplying the step.
-/
import proofs.«137662_j39410619908486_1_alg».proof.Proof.BodyPieces
import proofs.«137662_j39410619908486_1_alg».proof.Proof.BodyValues
import proofs.«137662_j39410619908486_1_alg».proof.Proof.Blocks

set_option maxRecDepth 16384

noncomputable section

open scoped BigOperators

namespace Cert.KernelIdeal.Accumulate

open Cert.KernelIdeal Cert.KernelIdeal.Gen Cert.KernelIdeal.Blocks Idealize.ShloMosaic Idealize.ShloMosaic.TcCoe Idealize.SL.Sem
open Idealize.ShloMosaic.ValueIdx

variable (m : (ℓ : Loc nD τ sig) → Buf (Elt Ideal) ℓ)

/-! ## The buffers after a point, as the body's arithmetic of the point's blocks -/

theorem lt128 (t : Fin cfg0.N) : t.val < 128 := lt_of_lt_of_eq t.isLt (show cfg0.N = 128 from N_0)

/-- The gate buffer after point t. -/
theorem gateVec (c : Dev nD) (t : Fin cfg0.N) :
    ((outsAt0 m c t.val t.isLt).1 : FVec Ideal S512x512 .f32)
      = k0_pay4 (F := Ideal) (blkCentred m c t) (blkEncW m c t) (blkEncB m c t) (blkLthr m c t) := by
  have hN := lt128 t
  by_cases h0 : t.val % 128 = 0
  · have h1 : ¬t.val % 128 = 127 := by omega
    rw [outsAt0_A m c t h0 h1]
    dsimp only
    exact BodyPieces.gate_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)
  · by_cases h1 : t.val % 128 = 127
    · rw [outsAt0_C m c t h0 h1]
      dsimp only
      exact BodyPieces.gate_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2
    · rw [outsAt0_B m c t h0 h1]
      dsimp only
      exact BodyPieces.gate_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2

/-- The accumulator after the first point: the update applied to the reset value. -/
theorem accVec_first (c : Dev nD) (t : Fin cfg0.N) (h0 : t.val % 128 = 0) :
    ((outsAt0 m c t.val t.isLt).2.2 : FVec Ideal S512x2048 .f32)
      = k0_pay5 (F := Ideal) (blkCentred m c t) (blkEncW m c t) (blkEncB m c t) (blkLthr m c t) (blkDecW m c t) (k0_pay2 (F := Ideal)) := by
  have hN := lt128 t
  have h1 : ¬t.val % 128 = 127 := by omega
  rw [outsAt0_A m c t h0 h1]
  dsimp only
  exact BodyPieces.acc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- The accumulator after any later point: the update applied to what the point before left. -/
theorem accVec_next (c : Dev nD) (t : Fin cfg0.N) (h0 : ¬t.val % 128 = 0) :
    ((outsAt0 m c t.val t.isLt).2.2 : FVec Ideal S512x2048 .f32)
      = k0_pay5 (F := Ideal) (blkCentred m c t) (blkEncW m c t) (blkEncB m c t) (blkLthr m c t) (blkDecW m c t) (outsAt0 m c (t.val - 1) (Nat.lt_of_le_of_lt (Nat.sub_le _ _) t.isLt)).2.2 := by
  by_cases h1 : t.val % 128 = 127
  · rw [outsAt0_C m c t h0 h1]
    dsimp only
    exact BodyPieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2
  · rw [outsAt0_B m c t h0 h1]
    dsimp only
    exact BodyPieces.acc_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2

/-- The reconstruction buffer after the last point: the rescaling of that point's accumulator. -/
theorem reconVec_last (c : Dev nD) (t : Fin cfg0.N) (h1 : t.val % 128 = 127) :
    ((outsAt0 m c t.val t.isLt).2.1 : FVec Ideal S512x2048 .f32)
      = k0_pay1 (F := Ideal) ((outsAt0 m c t.val t.isLt).2.2) (blkDecB m c t) := by
  have h0 : ¬t.val % 128 = 0 := by omega
  rw [outsAt0_C m c t h0 h1]
  dsimp only
  exact (BodyPieces.recon_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2).trans
    (congrArg (fun a => k0_pay1 (F := Ideal) a (blkDecB m c t))
      (BodyPieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2).symm)

/-! ## The point's arithmetic as the specification's, tile t -/

/-- The tile's pre-activation is the specification's at feature 512 t + q. -/
theorem pre_tile (c : Dev nD) (t : Fin cfg0.N) (n q : Fin 512) :
    k0_pay3 (F := Ideal) (blkCentred m c t) (blkEncW m c t) (blkEncB m c t) (ix2 n q)
      = Sae.pre (argX m c) (argEncW m c) (argEncB m c) (argDecB m c) n (Sae.col (tileOf t) q) := by
  rw [BodyValues.pre_apply, blkEncB_apply]
  unfold Sae.pre Sae.centred
  refine congrArg (· + argEncB m c (ix1 (Sae.col (tileOf t) q))) (Finset.sum_congr rfl fun d _ => ?_)
  rw [blkCentred_apply, blkEncW_apply]

/-- The tile's gate is the specification's. -/
theorem gate_tile (c : Dev nD) (t : Fin cfg0.N) (n q : Fin 512) :
    k0_pay4 (F := Ideal) (blkCentred m c t) (blkEncW m c t) (blkEncB m c t) (blkLthr m c t) (ix2 n q)
      = Sae.gate (argX m c) (argEncW m c) (argEncB m c) (argDecB m c) (argLthr m c) n (Sae.col (tileOf t) q) := by
  rw [BodyValues.gate_apply, pre_tile, blkLthr_apply]
  rfl

/-- One feature's share of a decoded entry, at the program's arguments. -/
abbrev shareAt (c : Dev nD) (n : Fin 512) (d : Fin 2048) : Fin 65536 → EReal :=
  Sae.share (argX m c) (argEncW m c) (argEncB m c) (argDecW m c) (argDecB m c) (argLthr m c) n d

/-- The update adds tile t's decoded shares. -/
theorem update_tile (c : Dev nD) (t : Fin cfg0.N) (acc : FVec Ideal S512x2048 .f32) (n : Fin 512) (d : Fin 2048) :
    k0_pay5 (F := Ideal) (blkCentred m c t) (blkEncW m c t) (blkEncB m c t) (blkLthr m c t) (blkDecW m c t) acc (ix2 n d)
      = acc (ix2 n d) + Sae.tileSum (shareAt m c n d) t.val := by
  rw [BodyValues.acc_apply, Sae.tileSum_of_lt _ _ (lt128 t)]
  refine congrArg (acc (ix2 n d) + ·) (Finset.sum_congr rfl fun q _ => ?_)
  rw [pre_tile, gate_tile, blkDecW_apply]
  rfl

/-! ## The running sum -/

/-- After point t the accumulator holds the sum of the shares of tiles 0..t. -/
theorem acc_running (c : Dev nD) (n : Fin 512) (d : Fin 2048) : ∀ (t : ℕ) (ht : t < cfg0.N),
    ((outsAt0 m c t ht).2.2 : FVec Ideal S512x2048 .f32) (ix2 n d) = Sae.running (Sae.tileSum (shareAt m c n d)) t
  | 0, ht => by
    have e := congrFun (accVec_first m c ⟨0, ht⟩ rfl) (ix2 n d)
    refine e.trans ?_
    rw [update_tile, BodyValues.reset_apply]
    rfl
  | t + 1, ht => by
    have hN : t + 1 < 128 := lt_of_lt_of_eq ht (show cfg0.N = 128 from N_0)
    have e := congrFun (accVec_next m c ⟨t + 1, ht⟩ (by show ¬(t + 1) % 128 = 0; omega)) (ix2 n d)
    refine e.trans ?_
    rw [update_tile]
    show ((outsAt0 m c t _).2.2 : FVec Ideal S512x2048 .f32) (ix2 n d) + _ = Sae.running _ t + _
    rw [acc_running c n d t (Nat.lt_of_succ_lt ht)]

/-- After the last point the accumulator holds the whole decoded entry. -/
theorem acc_final (c : Dev nD) (t : Fin cfg0.N) (h1 : t.val % 128 = 127) (n : Fin 512) (d : Fin 2048) :
    ((outsAt0 m c t.val t.isLt).2.2 : FVec Ideal S512x2048 .f32) (ix2 n d) = ∑ k : Fin 65536, shareAt m c n d k := by
  have hN := lt128 t
  have ht : t.val = 127 := by omega
  rw [acc_running m c n d t.val t.isLt, ht]
  exact Sae.running_tiles _

/-- After the last point the reconstruction buffer holds the specification's reconstruction. -/
theorem recon_final (c : Dev nD) (t : Fin cfg0.N) (h1 : t.val % 128 = 127) (n : Fin 512) (d : Fin 2048) :
    ((outsAt0 m c t.val t.isLt).2.1 : FVec Ideal S512x2048 .f32) (ix2 n d) = Sae.recon (argX m c) (argEncW m c) (argEncB m c) (argDecW m c) (argDecB m c) (argLthr m c) n d := by
  rw [reconVec_last m c t h1, BodyValues.recon_apply, acc_final m c t h1, blkDecB_apply]
  rfl

end Cert.KernelIdeal.Accumulate

end
-- ==== Proof.Arrays.lean ====
/-
  The two arrays the region leaves behind.

  The gate array is written one tile per grid point: block t is columns 512 t .. 512 t + 511, and every column lies in
  exactly the block of the tile (column / 512), so the blocks cover the array and it ends holding the specification's
  gate. The reconstruction array is written once, whole, after the last point, with the specification's reconstruction.
-/
import proofs.«137662_j39410619908486_1_alg».proof.Proof.Accumulate

set_option maxRecDepth 16384

noncomputable section

namespace Cert.KernelIdeal.Arrays

open Cert.KernelIdeal Cert.KernelIdeal.Gen Cert.KernelIdeal.Blocks Cert.KernelIdeal.Accumulate
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The specification's gate array at the program's arguments. -/
abbrev gateSpec (c : Dev nD) : FVec Ideal S512x65536 .f32 := Sae.gateArr (argX m c) (argEncW m c) (argEncB m c) (argDecB m c) (argLthr m c)

/-- The specification's reconstruction at the program's arguments. -/
abbrev reconSpec (c : Dev nD) : FVec Ideal S512x2048 .f32 := Sae.reconArr (argX m c) (argEncW m c) (argEncB m c) (argDecW m c) (argDecB m c) (argLthr m c)

/-- Where the two output windows' blocks sit at point t. -/
theorem out_idx_facts : ∀ t : Fin cfg0.N,
    win0_6.index t (0 : Fin 2) = 0 ∧ win0_6.index t (1 : Fin 2) = t.val
    ∧ win0_7.index t (0 : Fin 2) = 0 ∧ win0_7.index t (1 : Fin 2) = 0 :=
  (by decide +kernel : ∀ t : Fin grid0.N, _)

/-! ## The gate array -/

/-- What point t writes back is block t of the specification's gate. -/
theorem gate_flushed (c : Dev nD) (t : Fin cfg0.N) (hf : (cfg0.win 6).flush t = true) :
    (dats m 0 c).flushed 6 t = ((cfg0.win 6).blk t).view.read (Elt Ideal) (gateSpec m c) := by
  obtain ⟨e60, e61, -⟩ := out_idx_facts t
  show (cfg0.win 6).cut (grid0.coords t) ((dats m 0 c).after 6 t) = _
  rw [after0_6, gateVec]
  funext j
  obtain ⟨n, q, rfl⟩ : ∃ (n q : Fin 512), j = ix2 n q := ⟨j 0, j 1, eq_ix2 j⟩
  show k0_pay4 (F := Ideal) (blkCentred m c t) (blkEncW m c t) (blkEncB m c t) (blkLthr m c t) (ix2 n q)
    = gateSpec m c (((cfg0.win 6).blk t).view.emb (ix2 n q))
  rw [gate_tile]
  show Sae.gate (argX m c) (argEncW m c) (argEncB m c) (argDecB m c) (argLthr m c) n (Sae.col (tileOf t) q)
    = Sae.gate (argX m c) (argEncW m c) (argEncB m c) (argDecB m c) (argLthr m c) ((((cfg0.win 6).blk t).view.emb (ix2 n q)) 0) ((((cfg0.win 6).blk t).view.emb (ix2 n q)) 1)
  congr 1
  · apply Fin.ext
    show n.val = win0_6.index t (0 : Fin 2) * 512 + 1 * n.val
    omega
  · apply Fin.ext
    show 512 * t.val + q.val = win0_6.index t (1 : Fin 2) * 512 + 1 * q.val
    omega

/-- After the region the gate array holds the specification's gate. -/
theorem gate_final (c : Dev nD) : (dats m 0 c).arrAt 6 cfg0.N = gateSpec m c :=
  (dats m 0 c).arrAt_eq_of_cover 6 (gateSpec m c) (gate_flushed m c) fun i => by
    have hi0 : (i 0).val < 512 := (i 0).isLt
    have hi1 : (i 1).val < 65536 := (i 1).isLt
    have hN : cfg0.N = 128 := N_0
    obtain ⟨t, ht⟩ : ∃ t : Fin cfg0.N, t.val = (i 1).val / 512 := ⟨⟨(i 1).val / 512, by rw [hN]; omega⟩, rfl⟩
    obtain ⟨e60, e61, -⟩ := out_idx_facts t
    refine ⟨t, flush0_6 t, ?_⟩
    show i ∈ ((View.whole main_v6_0).slice (win0_6.rect t)).set
    rw [View.set_slice_whole, Rect.mem_set_unit]
    intro a
    match a with
    | ⟨0, _⟩ =>
      show win0_6.index t (0 : Fin 2) * 512 ≤ (i 0).val ∧ (i 0).val < win0_6.index t (0 : Fin 2) * 512 + 512
      omega
    | ⟨1, _⟩ =>
      show win0_6.index t (1 : Fin 2) * 512 ≤ (i 1).val ∧ (i 1).val < win0_6.index t (1 : Fin 2) * 512 + 512
      omega

/-! ## The reconstruction array -/

/-- The one write-back, after the last point, writes the specification's reconstruction. -/
theorem recon_flushed (c : Dev nD) (t : Fin cfg0.N) (hf : (cfg0.win 7).flush t = true) :
    (dats m 0 c).flushed 7 t = ((cfg0.win 7).blk t).view.read (Elt Ideal) (reconSpec m c) := by
  have h1 : t.val % 128 = 127 := (flush0_7 t).mp hf
  obtain ⟨-, -, e70, e71⟩ := out_idx_facts t
  show (cfg0.win 7).cut (grid0.coords t) ((dats m 0 c).after 7 t) = _
  rw [after0_7]
  funext j
  obtain ⟨n, d, rfl⟩ : ∃ (n : Fin 512) (d : Fin 2048), j = ix2 n d := ⟨j 0, j 1, eq_ix2 j⟩
  show ((outsAt0 m c t.val t.isLt).2.1 : FVec Ideal S512x2048 .f32) (ix2 n d)
    = reconSpec m c (((cfg0.win 7).blk t).view.emb (ix2 n d))
  rw [recon_final m c t h1]
  show Sae.recon (argX m c) (argEncW m c) (argEncB m c) (argDecW m c) (argDecB m c) (argLthr m c) n d
    = Sae.recon (argX m c) (argEncW m c) (argEncB m c) (argDecW m c) (argDecB m c) (argLthr m c) ((((cfg0.win 7).blk t).view.emb (ix2 n d)) 0) ((((cfg0.win 7).blk t).view.emb (ix2 n d)) 1)
  congr 1
  · apply Fin.ext
    show n.val = win0_7.index t (0 : Fin 2) * 512 + 1 * n.val
    omega
  · apply Fin.ext
    show d.val = win0_7.index t (1 : Fin 2) * 2048 + 1 * d.val
    omega

/-- After the region the reconstruction array holds the specification's reconstruction. -/
theorem recon_final_arr (c : Dev nD) : (dats m 0 c).arrAt 7 cfg0.N = reconSpec m c :=
  (dats m 0 c).arrAt_eq_of_cover 7 (reconSpec m c) (recon_flushed m c) fun i => by
    have hi0 : (i 0).val < 512 := (i 0).isLt
    have hi1 : (i 1).val < 2048 := (i 1).isLt
    have hN : cfg0.N = 128 := N_0
    obtain ⟨t, ht⟩ : ∃ t : Fin cfg0.N, t.val = 127 := ⟨⟨127, by rw [hN]; decide⟩, rfl⟩
    obtain ⟨-, -, e70, e71⟩ := out_idx_facts t
    refine ⟨t, (flush0_7 t).mpr (by rw [ht]), ?_⟩
    show i ∈ ((View.whole main_v6_1).slice (win0_7.rect t)).set
    rw [View.set_slice_whole, Rect.mem_set_unit]
    intro a
    match a with
    | ⟨0, _⟩ =>
      show win0_7.index t (0 : Fin 2) * 512 ≤ (i 0).val ∧ (i 0).val < win0_7.index t (0 : Fin 2) * 512 + 512
      omega
    | ⟨1, _⟩ =>
      show win0_7.index t (1 : Fin 2) * 2048 ≤ (i 1).val ∧ (i 1).val < win0_7.index t (1 : Fin 2) * 2048 + 2048
      omega

end Cert.KernelIdeal.Arrays

end
-- ==== Proof.KernelRun.lean ====
/-
  The idealized kernel program's run, read as values.

  After the region the host computes the loss from the reconstruction array and x by a fixed chain of operations
  (subtract, square, sum over the rows, divide by 512, sum, divide by 64). That chain is kept as one function
  `lossOf` of the reconstruction and is never opened: the program's second result is `lossOf` of the specification's
  reconstruction, its first result the specification's gate, and its six arguments end as they started.
-/
import proofs.«137662_j39410619908486_1_alg».proof.Proof.Arrays

set_option maxRecDepth 16384

noncomputable section

namespace Cert.KernelIdeal.KernelRun

open Cert.KernelIdeal Cert.KernelIdeal.Gen Cert.KernelIdeal.Blocks Cert.KernelIdeal.Arrays
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The loss as a function of the reconstruction and x: subtract, square, sum the rows, divide by 512, sum, divide by 64. -/
def lossOf (r x : FVec Ideal S512x2048 .f32) : FVec Ideal S_ .f32 :=
  Host.divf (F := Ideal)
    (Host.reduceAdd (F := Ideal)
      (Host.divf (F := Ideal)
        (Host.reduceAdd (F := Ideal) (mulf (subf r x) (subf r x)) (constant (F := Ideal) S_ .f32 0x00000000#32)
          reducesTo_S512x2048_S2048_d0 h_S_)
        (broadcastInDim S2048 ![] bcast_S_S2048 (constant (F := Ideal) S_ .f32 0x44000000#32)))
      (constant (F := Ideal) S_ .f32 0x00000000#32) reducesTo_S2048_S_d0 h_S_)
    (constant (F := Ideal) S_ .f32 0x42800000#32)

/-- The host lines after the region compute the loss of the reconstruction array the region left. -/
theorem tail_eq (c : Dev nD) :
    Pipeline.afterTail₀ cfgs (dats m) 0 (V0 m) [hostOps1] c main_v13
      = lossOf ((dats m 0 c).arrAt 7 cfg0.N) (argX m c) := by
  unfold Pipeline.afterTail₀
  show StableHlo.after hostOps1 _ (Proc.devRef .tc main_v13) = _
  after_results
  have e7 : Pipeline.withArrays (cfgs 0).spec c (V0 m c) (fun w => (dats m 0 c).arrAt w (cfgs 0).N) (Proc.devRef .tc main_v6_1)
      = (dats m 0 c).arrAt 7 cfg0.N := Pipeline.withArrays_arr spec0 launch0.win.arr_inj c _ _ 7
  have e0 : Pipeline.withArrays (cfgs 0).spec c (V0 m c) (fun w => (dats m 0 c).arrAt w (cfgs 0).N) (Proc.devRef .tc main_arg0)
      = argX m c :=
    (Pipeline.withArrays_of_ne _ c (V0 m c) _ main_arg0 (by exact (by decide : ∀ w, Pipeline.arrRef spec0 w ≠ main_arg0))).trans
      (V_main_arg0 m c)
  rw [e7, e0]
  rfl

/-- THE RUN: every weakly fair execution of the idealized kernel program terminates with the gate array at the
    specification's gate, the loss at `lossOf` of the specification's reconstruction, and the arguments unchanged. -/
theorem run : θ_run defs (onTc (τ := τ) (main (F := Ideal))) ⟨m, fun _ => 0, ρ⟩ fun r => ∀ c : Dev nD,
      r.2.mem ((c.tc : Thread nD τ).loc main_v6_0) = gateSpec m c
      ∧ r.2.mem ((c.tc : Thread nD τ).loc main_v13) = lossOf (reconSpec m c) (argX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (gate_final m c),
      ((h c).2 main_v13 (Pipeline.mem_restRefs_of main_v13 (by decide) (by decide))).trans
        ((tail_eq m c).trans (congrArg (fun r => lossOf r (argX m c)) (recon_final_arr m c))),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.KernelRun

end
-- ==== Proof.lean ====
/-
  A sparse autoencoder's forward pass with a hard-step (JumpReLU) gate: the kernel program against its jnp reference,
  equal over the extended reals.

  Both programs centre a batch x (512 x 2048) by the decoder bias, encode it against 65536 dictionary rows, gate each
  pre-activation by the step "pre > exp(log_threshold)", decode the gated activations, add the bias back and divide by 64,
  and return the gate (512 x 65536) together with a scalar loss of the reconstruction. The reference does each matrix
  product whole; the kernel walks the dictionary in 128 tiles of 512 features, writing one tile of the gate per grid
  point and adding each tile's decoded shares to an accumulator it resets at the first point and rescales into the
  reconstruction after the last. Over the extended reals a change of float format is the identity and a sum may be
  regrouped freely, so the accumulator after the last tile is the reference's whole contraction (`Sae.running_tiles`);
  nothing else differs. The loss is the same chain of host operations on both sides and is carried as one function of the
  reconstruction. No step uses that the inputs are finite.

  The modules: `Sae` (the mathematics, no program), `RefSae` (the reference's stages are that mathematics),
  `BodyValues` (the kernel body's arithmetic at an index), `BodyPieces` (what each control case of the body leaves),
  `Blocks` (the windows' blocks read from the arguments), `Accumulate` (the induction over grid points), `Arrays`
  (the two arrays after the region), `KernelRun` (the kernel program's run with its host lines), and one general
  lemma file on a matrix product with a transposed right operand.
-/
import proofs.«137662_j39410619908486_1_alg».proof.Defs
import proofs.«137662_j39410619908486_1_alg».proof.Proof.Gen.Kernel
import proofs.«137662_j39410619908486_1_alg».proof.Proof.Gen.Kernel.Frame
import proofs.«137662_j39410619908486_1_alg».proof.Proof.Gen.KernelIdeal
import proofs.«137662_j39410619908486_1_alg».proof.Proof.Gen.KernelIdeal.Frame
import proofs.«137662_j39410619908486_1_alg».proof.Proof.Gen.ReferenceIdeal
import proofs.«137662_j39410619908486_1_alg».proof.Proof.Gen.ReferenceIdeal.Run
import proofs.«137662_j39410619908486_1_alg».proof.Proof.Gen.ReferenceIdeal.Read
import proofs.«137662_j39410619908486_1_alg».proof.Proof.Gen.Pre_finite_inputs
import proofs.«137662_j39410619908486_1_alg».proof.Proof.RefSae
import proofs.«137662_j39410619908486_1_alg».proof.Proof.KernelRun
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the two results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- Over the extended reals both programs end with the specification's gate and the loss of the specification's
    reconstruction, from arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Arrays.gateSpec m c,
    fun c => Cert.KernelIdeal.KernelRun.lossOf (Cert.KernelIdeal.Arrays.reconSpec m c) (Cert.KernelIdeal.Blocks.argX m c),
    Cert.KernelIdeal.KernelRun.run m ρ, ?_⟩
  refine (θ_run Cert.ReferenceIdeal.defs _ _).mono (fun _ h c => ?_) (Cert.ReferenceIdeal.Value.run (F := Ideal) m' ρ')
  obtain ⟨h12, h27, hargs⟩ := h c
  obtain ⟨a0, a1, a2, a3, a4, a5⟩ := hagree c
  refine ⟨?_, ?_, hargs⟩
  · refine h12.trans ((Cert.ReferenceIdeal.Read.val_main_v12_eq _ _ _ _ _).trans
      ((Cert.ReferenceIdeal.RefSae.gateArr_eq _ _ _ _ _).trans ?_))
    rw [a0, a1, a2, a4, a5]
  · refine h27.trans ((Cert.ReferenceIdeal.Read.val_main_v27_eq _ _ _ _ _ _).trans
      ((Cert.ReferenceIdeal.RefSae.loss_eq _ _ _ _ _ _).trans ?_))
    rw [Cert.ReferenceIdeal.RefSae.reconArr_eq, a0, a1, a2, a3, a4, a5]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
